-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x3 : Shape := ⟨3, ![32, 2048, 3]⟩
abbrev S_ : Shape := ⟨0, ![]⟩

class Facts : Prop where
  bcast_S_S32x2048x3 : S_.BroadcastsInDim S32x2048x3 (![] : Fin 0 → Fin S32x2048x3.rank)
  reducesTo_S32x2048x3_S_d0_1_2 : S32x2048x3.ReducesTo [0, 1, 2] S_
  h_S_ : 0 < S_.numel

variable [Facts]

def fn {F : FTy → Type} [FloatOps F] (main_arg0 : FVec F S32x2048x3 .f32) (main_arg1 : FVec F S32x2048x3 .f32) : IVec S_ 1 :=
  let main_v0 : FVec F S32x2048x3 .f32 := Host.absf main_arg0
  let main_cst : FVec F S_ .f32 := constant S_ .f32 0x7F800000#32
  let main_v1 : FVec F S32x2048x3 .f32 := broadcastInDim S32x2048x3 ![] bcast_S_S32x2048x3 main_cst
  let main_v2 : IVec S32x2048x3 1 := cmpf .olt main_v0 main_v1
  let main_c : IVec S_ 1 := constantI S_ 1 1#1
  let main_v3 : IVec S_ 1 := (fun x v => Host.reduce IntOp.andi x v reducesTo_S32x2048x3_S_d0_1_2 h_S_) main_v2 main_c
  let main_v4 : FVec F S32x2048x3 .f32 := Host.absf main_arg1
  let main_cst_0 : FVec F S_ .f32 := constant S_ .f32 0x7F800000#32
  let main_v5 : FVec F S32x2048x3 .f32 := broadcastInDim S32x2048x3 ![] bcast_S_S32x2048x3 main_cst_0
  let main_v6 : IVec S32x2048x3 1 := cmpf .olt main_v4 main_v5
  let main_c_1 : IVec S_ 1 := constantI S_ 1 1#1
  let main_v7 : IVec S_ 1 := (fun x v => Host.reduce IntOp.andi x v reducesTo_S32x2048x3_S_d0_1_2 h_S_) main_v6 main_c_1
  let main_v8 : IVec S_ 1 := andi main_v3 main_v7
  main_v8
-- ==== Kernel.lean ====
abbrev S32x2048x3 : Shape := ⟨3, ![32, 2048, 3]⟩
abbrev S32x8x128 : Shape := ⟨3, ![32, 8, 128]⟩
abbrev S1x2048x3 : Shape := ⟨3, ![1, 2048, 3]⟩
abbrev S1x1024x3 : Shape := ⟨3, ![1, 1024, 3]⟩
abbrev S1x8x128 : Shape := ⟨3, ![1, 8, 128]⟩
abbrev S2048x1 : Shape := ⟨2, ![2048, 1]⟩
abbrev S1x128 : Shape := ⟨2, ![1, 128]⟩
abbrev S2048x3 : Shape := ⟨2, ![2048, 3]⟩
abbrev S1024x3 : Shape := ⟨2, ![1024, 3]⟩
abbrev S3x1024 : Shape := ⟨2, ![3, 1024]⟩
abbrev S2048x1024 : Shape := ⟨2, ![2048, 1024]⟩
abbrev S2048 : Shape := ⟨1, ![2048]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S8x128 : Shape := ⟨2, ![8, 128]⟩
abbrev S32x1x1 : Shape := ⟨3, ![32, 1, 1]⟩
abbrev S32 : Shape := ⟨1, ![32]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S32x2048x3, .f32⟩
  | .hbm, ⟨1, _⟩ => ⟨S32x2048x3, .f32⟩
  | .hbm, ⟨2, _⟩ => ⟨S32x8x128, .f32⟩
  | .hbm, ⟨3, _⟩ => ⟨S32x1x1, .f32⟩
  | .hbm, ⟨4, _⟩ => ⟨S32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x1024x3, .f32⟩
  | .local _ .vmem, ⟨3, _⟩ => ⟨S1x1024x3, .f32⟩
  | .local _ .vmem, ⟨4, _⟩ => ⟨S1x8x128, .f32⟩
  | .local _ .vmem, ⟨5, _⟩ => ⟨S1x8x128, .f32⟩
  | .local _ .vmem, ⟨6, _⟩ => ⟨S2048x1, .f32⟩
  | .local _ .vmem, ⟨7, _⟩ => ⟨S1x128, .f32⟩
  | _, _ => ⟨S32x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v42 : BitVec 1 := Scalar.cmpi .eq arg1 c1_i32
  let v43 : BitVec 32 := Scalar.extui v42
  let c0_i32_21 : BitVec 32 := 0#32
  let v44 : BitVec 1 := Scalar.cmpi .ne v43 c0_i32_21
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  transposes_S1024x3_p1_0_S3x1024 : S1024x3.Transposes [1, 0] S3x1024
  reduces_S2048x3_S2048 : S2048x3.Reduces [1] S2048
  shapeCasts_S2048_S2048x1 : S2048.ShapeCasts S2048x1
  reduces_S1024x3_S1024 : S1024x3.Reduces [1] S1024
  shapeCasts_S1024_S1x1024 : S1024.ShapeCasts S1x1024
  broadcasts_S2048x1_S2048x1024 : S2048x1.Broadcasts S2048x1024
  broadcasts_S1x1024_S2048x1024 : S1x1024.Broadcasts S2048x1024
  reduces_S2048x1024_S2048 : S2048x1024.Reduces [1] S2048
  reduces_S2048x1024_S1024 : S2048x1024.Reduces [0] S1024
  reduces_S1x1024_S1 : S1x1024.Reduces [1] S1
  shapeCasts_S1_S1x1 : S1.ShapeCasts S1x1
  shapeCasts_S1x1_S1x1 : S1x1.ShapeCasts S1x1
  broadcasts_S1x1_S1x128 : S1x1.Broadcasts S1x128
  reduces_S2048x1_S1 : S2048x1.Reduces [0] S1
  inb_S1x128_S1x1_0_0 : ∀ a, (![0, 0] : Fin 2 → Nat) a + S1x1.size a ≤ S1x128.size a
  h_S1x1 : 0 < S1x1.numel
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  dot_S2048x3_S3x1024_S2048x1024_1_0_0_1_n_n_wf : DotDims.WF S2048x3 S3x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S32x2048x3.size a
  hwx0_0 : ∀ i : grid0.Coords, EltTy.bits .f32 = 32 ∨ (Rect.block (s := S32x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S32x2048x3.size a
  hwx0_1 : ∀ i : grid0.Coords, EltTy.bits .f32 = 32 ∨ (Rect.block (s := S32x2048x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S32x8x128.size a
  hwx0_2 : ∀ i : grid0.Coords, EltTy.bits .f32 = 32 ∨ (Rect.block (s := S32x8x128) S1x8x128.size (cc0_transform_2 i) (hinb0_2 i)).WholeWords (EltTy.packing .f32)

variable [Facts₀]

def dot_S2048x3_S3x1024_S2048x1024_1_0_0_1_n_n : DotDims S2048x3 S3x1024 S2048x1024 where
  lhsContracting := [1]
  rhsContracting := [0]
  lhsNonContracting := [0]
  rhsNonContracting := [1]
  lhsBatch := []
  rhsBatch := []
  wf := dot_S2048x3_S3x1024_S2048x1024_1_0_0_1_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x2048x3 : Shape := ⟨3, ![32, 2048, 3]⟩
abbrev S_ : Shape := ⟨0, ![]⟩
abbrev S32x2048 : Shape := ⟨2, ![32, 2048]⟩
abbrev S32x2048x2048 : Shape := ⟨3, ![32, 2048, 2048]⟩
abbrev S32x2048x1 : Shape := ⟨3, ![32, 2048, 1]⟩
abbrev S32x1x2048 : Shape := ⟨3, ![32, 1, 2048]⟩
abbrev S32 : Shape := ⟨1, ![32]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x3, .f32⟩
  | .hbm, ⟨1, _⟩ => ⟨S32x2048x3, .f32⟩
  | .hbm, ⟨2, _⟩ => ⟨S32x2048x3, .f32⟩
  | .hbm, ⟨3, _⟩ => ⟨S_, .f32⟩
  | .hbm, ⟨4, _⟩ => ⟨S32x2048, .f32⟩
  | .hbm, ⟨5, _⟩ => ⟨S32x2048x3, .f32⟩
  | .hbm, ⟨6, _⟩ => ⟨S_, .f32⟩
  | .hbm, ⟨7, _⟩ => ⟨S32x2048, .f32⟩
  | .hbm, ⟨8, _⟩ => ⟨S32x2048x2048, .f32⟩
  | .hbm, ⟨9, _⟩ => ⟨S32x2048x1, .f32⟩
  | .hbm, ⟨10, _⟩ => ⟨S32x1x2048, .f32⟩
  | .hbm, ⟨11, _⟩ => ⟨S32x2048x2048, .f32⟩
  | .hbm, ⟨12, _⟩ => ⟨S32x2048x2048, .f32⟩
  | .hbm, ⟨13, _⟩ => ⟨S32x2048x2048, .f32⟩
  | .hbm, ⟨14, _⟩ => ⟨S_, .f32⟩
  | .hbm, ⟨15, _⟩ => ⟨S32x2048x2048, .f32⟩
  | .hbm, ⟨16, _⟩ => ⟨S32x2048x2048, .f32⟩
  | .hbm, ⟨17, _⟩ => ⟨S32x2048x2048, .f32⟩
  | .hbm, ⟨18, _⟩ => ⟨S_, .f32⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S_, .f32⟩
  | .hbm, ⟨24, _⟩ => ⟨S32x2048, .f32⟩
  | .hbm, ⟨25, _⟩ => ⟨S32x2048, .f32⟩
  | .hbm, ⟨26, _⟩ => ⟨S_, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32x2048, .f32⟩
  | .hbm, ⟨32, _⟩ => ⟨S_, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S32x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  reducesTo_S32x2048x3_S32x2048_d2 : S32x2048x3.ReducesTo [2] S32x2048
  h_S_ : 0 < S_.numel
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S32x2048_d2 : S32x2048x2048.ReducesTo [2] S32x2048
  reducesTo_S32x2048x2048_S32x2048_d1 : S32x2048x2048.ReducesTo [1] S32x2048
  reducesTo_S32x2048_S32_d1 : S32x2048.ReducesTo [1] S32
  bcast_S_S32 : S_.BroadcastsInDim S32 (![] : Fin 0 → Fin S32.rank)
  reducesTo_S32_S_d0 : S32.ReducesTo [0] S_
  dot_S32x2048x3_S32x2048x3_S32x2048x2048_2_2_1_1_0_0_wf : DotDims.WF S32x2048x3 S32x2048x3 S32x2048x2048 [2] [2] [1] [1] [0] [0]

variable [Facts₀]

def dot_S32x2048x3_S32x2048x3_S32x2048x2048_2_2_1_1_0_0 : DotDims S32x2048x3 S32x2048x3 S32x2048x2048 where
  lhsContracting := [2]
  rhsContracting := [2]
  lhsNonContracting := [1]
  rhsNonContracting := [1]
  lhsBatch := [0]
  rhsBatch := [0]
  wf := dot_S32x2048x3_S32x2048x3_S32x2048x2048_2_2_1_1_0_0_wf

class Facts : Prop extends Facts₀ where

variable [Facts]
-- ==== Proof.KPieces.lean ====
/-
  What each control case of the kernel body leaves in the buffers it writes, as the body's named arithmetic of what
  it loaded. At a batch entry's first tile (case A) both scratch buffers are reset and then updated, so the update
  reads the reset's constant back; at its second tile (case B) each scratch is updated over what the tile before
  left, and the output block is computed from the two scratch buffers AS JUST UPDATED: the row-minimum column whole,
  the column-sum row through its first lane.
-/
import proofs.«430015_j76974403879473_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first lane of the column-sum row, as the body's 1 × 1 load at the origin reads it. -/
abbrev lane0 (w : Vec F S1x128 .f32) : Vec F S1x1 .f32 :=
  fun j => w ((Rect.unit (s := S1x128) ![0, 0] S1x1.size inb_S1x128_S1x1_0_0).idx j)

/-- First tile: the row-minimum scratch ends at the update of the constant the reset stored. -/
theorem sout_A_0 (c : Dev nD) (i : grid0.Coords) (a2 : Memref sig .tc .vmem S1x2048x3 .f32) (h2 : a2.IsWhole) (a3 : Memref sig .tc .vmem S1x1024x3 .f32) (h3 : a3.IsWhole) (a4 : Memref sig .tc .vmem S1x8x128 .f32) (h4 : a4.IsWhole) (a5 : Memref sig .tc .vmem S2048x1 .f32) (h5 : a5.IsWhole) (a6 : Memref sig .tc .vmem S1x128 .f32) (h6 : a6.IsWhole) (hc0 : cond0_0 i) (hc1 : ¬cond0_1 i)
    (x0 : Vec F S1x2048x3 .f32) (x1 : Vec F S1x1024x3 .f32) :
    sout0_A_0 c i a2 h2 a3 h3 a4 h4 a5 h5 a6 h6 hc0 hc1 x0 x1 = k0_pay6 x0 x1 (k0_pay3 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S2048x1) hz2]
  simp only [View.readAt_eq_ld, h2.read_unread, h3.read_unread, View.ld_unit_zero (S := S1x2048x3) hz3,
    View.ld_unit_zero (S := S1x1024x3) hz3, View.readCov_unit_zero (S := S2048x1) _ hz2]

/-- First tile: the column-sum scratch ends at the tile's sum added to the constant the reset stored. -/
theorem sout_A_1 (c : Dev nD) (i : grid0.Coords) (a2 : Memref sig .tc .vmem S1x2048x3 .f32) (h2 : a2.IsWhole) (a3 : Memref sig .tc .vmem S1x1024x3 .f32) (h3 : a3.IsWhole) (a4 : Memref sig .tc .vmem S1x8x128 .f32) (h4 : a4.IsWhole) (a5 : Memref sig .tc .vmem S2048x1 .f32) (h5 : a5.IsWhole) (a6 : Memref sig .tc .vmem S1x128 .f32) (h6 : a6.IsWhole) (hc0 : cond0_0 i) (hc1 : ¬cond0_1 i)
    (x0 : Vec F S1x2048x3 .f32) (x1 : Vec F S1x1024x3 .f32) :
    sout0_A_1 c i a2 h2 a3 h3 a4 h4 a5 h5 a6 h6 hc0 hc1 x0 x1 = k0_pay1 (k0_pay7 x0 x1) (k0_pay4 (F := F)) := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S1x128) hz2]
  simp only [View.readAt_eq_ld, h2.read_unread, h3.read_unread, View.ld_unit_zero (S := S1x2048x3) hz3,
    View.ld_unit_zero (S := S1x1024x3) hz3, View.readCov_unit_zero (S := S1x128) _ hz2]

/-- Second tile: the row-minimum scratch ends at the update of what the first tile left. -/
theorem sout_B_0 (c : Dev nD) (i : grid0.Coords) (a2 : Memref sig .tc .vmem S1x2048x3 .f32) (h2 : a2.IsWhole) (a3 : Memref sig .tc .vmem S1x1024x3 .f32) (h3 : a3.IsWhole) (a4 : Memref sig .tc .vmem S1x8x128 .f32) (h4 : a4.IsWhole) (a5 : Memref sig .tc .vmem S2048x1 .f32) (h5 : a5.IsWhole) (a6 : Memref sig .tc .vmem S1x128 .f32) (h6 : a6.IsWhole) (hc0 : ¬cond0_0 i) (hc1 : cond0_1 i)
    (x0 : Vec F S1x2048x3 .f32) (x1 : Vec F S1x1024x3 .f32) (xs0 : Vec F S2048x1 .f32) (xs1 : Vec F S1x128 .f32) :
    sout0_B_0 c i a2 h2 a3 h3 a4 h4 a5 h5 a6 h6 hc0 hc1 x0 x1 xs0 xs1 = k0_pay6 x0 x1 xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  sl_unfold_words
  rw [View.canon_unit_zero hz2]
  simp only [View.readAt_eq_ld, h2.read_unread, h3.read_unread, h5.read_unread, View.ld_unit_zero (S := S1x2048x3) hz3,
    View.ld_unit_zero (S := S1x1024x3) hz3, View.ld_unit_zero (S := S2048x1) hz2]

/-- Second tile: the column-sum scratch ends at the tile's sum added to what the first tile left. -/
theorem sout_B_1 (c : Dev nD) (i : grid0.Coords) (a2 : Memref sig .tc .vmem S1x2048x3 .f32) (h2 : a2.IsWhole) (a3 : Memref sig .tc .vmem S1x1024x3 .f32) (h3 : a3.IsWhole) (a4 : Memref sig .tc .vmem S1x8x128 .f32) (h4 : a4.IsWhole) (a5 : Memref sig .tc .vmem S2048x1 .f32) (h5 : a5.IsWhole) (a6 : Memref sig .tc .vmem S1x128 .f32) (h6 : a6.IsWhole) (hc0 : ¬cond0_0 i) (hc1 : cond0_1 i)
    (x0 : Vec F S1x2048x3 .f32) (x1 : Vec F S1x1024x3 .f32) (xs0 : Vec F S2048x1 .f32) (xs1 : Vec F S1x128 .f32) :
    sout0_B_1 c i a2 h2 a3 h3 a4 h4 a5 h5 a6 h6 hc0 hc1 x0 x1 xs0 xs1 = k0_pay1 (k0_pay7 x0 x1) xs1 := by
  unfold sout0_B_1
  rw [View.read_writes_eq_canon _ _ _ (scover0_B_1 c i a2 h2 a3 h3 a4 h4 a5 h5 a6 h6 hc0 hc1 x0 x1 xs0 xs1)]
  unfold kernelRun0_B
  dsimp only
  sl_unfold_words
  rw [View.canon_unit_zero hz2]
  simp only [View.readAt_eq_ld, h2.read_unread, h3.read_unread, h6.read_unread, View.ld_unit_zero (S := S1x2048x3) hz3,
    View.ld_unit_zero (S := S1x1024x3) hz3, View.ld_unit_zero (S := S1x128) hz2]

/-- Second tile: the output block is the final arithmetic of the two scratch buffers as this tile's updates left
    them. -/
theorem out_B_2 (c : Dev nD) (i : grid0.Coords) (a2 : Memref sig .tc .vmem S1x2048x3 .f32) (h2 : a2.IsWhole) (a3 : Memref sig .tc .vmem S1x1024x3 .f32) (h3 : a3.IsWhole) (a4 : Memref sig .tc .vmem S1x8x128 .f32) (h4 : a4.IsWhole) (a5 : Memref sig .tc .vmem S2048x1 .f32) (h5 : a5.IsWhole) (a6 : Memref sig .tc .vmem S1x128 .f32) (h6 : a6.IsWhole) (hc0 : ¬cond0_0 i) (hc1 : cond0_1 i)
    (x0 : Vec F S1x2048x3 .f32) (x1 : Vec F S1x1024x3 .f32) (xs0 : Vec F S2048x1 .f32) (xs1 : Vec F S1x128 .f32) :
    out0_B_2 c i a2 h2 a3 h3 a4 h4 a5 h5 a6 h6 hc0 hc1 x0 x1 xs0 xs1 = k0_pay2 (k0_pay6 x0 x1 xs0) (lane0 (k0_pay1 (k0_pay7 x0 x1) xs1)) := by
  unfold out0_B_2
  rw [View.read_writes_eq_canon _ _ _ (cover0_B_2 c i a2 h2 a3 h3 a4 h4 a5 h5 a6 h6 hc0 hc1 x0 x1 xs0 xs1)]
  unfold kernelRun0_B
  dsimp only
  sl_unfold_words
  rw [View.canon_unit_zero hz3, View.readCov_unit_zero (S := S2048x1) _ hz2, View.readCov_eq_canon', View.canon_unit_zero hz2]
  simp only [View.readAt_eq_ld, h2.read_unread, h3.read_unread, h5.read_unread, h6.read_unread, View.ld_unit_zero (S := S1x2048x3) hz3,
    View.ld_unit_zero (S := S1x1024x3) hz3, View.ld_unit_zero (S := S2048x1) hz2, View.ld_unit_zero (S := S1x128) hz2]
  rfl

end Cert.KernelIdeal.Pieces

end
-- ==== Proof.Spec.lean ====
/-
  The mathematics both programs compute, stated once over plain finite index types, and the one law that joins
  them.

  For a batch entry with point sets `A, B : Fin 2048 → Fin 3 → EReal` the loss is
    max ( mean over n of √(min over m of d(A n, B m)),  mean over m of √(min over n of d(A n, B m)) ),
  `d a b = max (|a|² + |b|² − 2·⟨a, b⟩) 0` the clamped squared distance. The reference takes each minimum over all
  2048 partners in one fold, each mean as a sum divided by 2048. The kernel walks B in two tiles of 1024: a row's
  minimum is kept as a running minimum from +∞ over the tiles, the column minima of a tile are complete inside it and
  their square roots are added up tile by tile from 0, and each mean is the sum TIMES the word 2⁻¹¹.
  On the extended reals: a minimum over 2048 is the minimum of the two minima over 1024 (the order's universal
  property), a sum over 2048 the sum of the two half sums (addition is commutative and associative there), and a
  quotient by the real 2048 is the product with 1/2048 at every extended real, the infinities included. No
  finiteness is used anywhere.
-/
import Idealize.ShloMosaic.PureOps.Ideal.Laws
import Idealize.ShloMosaic.Lib.ValueIdx

noncomputable section

open scoped BigOperators

namespace Cert.Chamfer

open Idealize.ShloMosaic

/-- The clamped squared distance of two points of the extended-real 3-space, `max (|a|² + |b|² − 2·⟨a, b⟩) 0`; the
    constants `2` and `0` stay the f32 words both programs spell (the same word on both sides is never evaluated). -/
def dist (a b : Fin 3 → EReal) : EReal :=
  max ((∑ k : Fin 3, a k * a k) + (∑ k : Fin 3, b k * b k) - Ideal.ofBits .f32 0x40000000#32 * ∑ k : Fin 3, a k * b k)
    (Ideal.ofBits .f32 0x00000000#32)

/-- The 2048 points of batch entry `b` of a [32, 2048, 3] array, each a function of its three coordinates. -/
def rows (x : (⟨3, ![32, 2048, 3]⟩ : Shape).Idx → EReal) (b : Fin 32) : Fin 2048 → Fin 3 → EReal :=
  fun n k => x (ValueIdx.ix3 b n k)

/-- The points of a [1, N, 3] block (one batch entry's rows as the kernel's window delivers them). -/
def blockRows {N : Nat} (x : (⟨3, ![1, N, 3]⟩ : Shape).Idx → EReal) : Fin N → Fin 3 → EReal :=
  fun n k => x (ValueIdx.ix3 (0 : Fin 1) n k)

/-- Row `j` of tile `k` of a 2048-row array: row `1024·k + j`. -/
def tile (k : Fin 2) (j : Fin 1024) : Fin 2048 := ⟨k.val * 1024 + j.val, by have := k.isLt; have := j.isLt; omega⟩

/-- A row's minimum distance to the 1024 points of ONE tile, folded from the word `+∞`. -/
def rowMinTile (A : Fin 2048 → Fin 3 → EReal) (Bt : Fin 1024 → Fin 3 → EReal) (n : Fin 2048) : EReal :=
  (Finset.univ : Finset (Fin 1024)).fold min (Ideal.ofBits .f32 0x7F800000#32) (fun j => dist (A n) (Bt j))

/-- The sum over one tile's 1024 points of the square root of each point's minimum distance to all 2048 rows. -/
def colSumTile (A : Fin 2048 → Fin 3 → EReal) (Bt : Fin 1024 → Fin 3 → EReal) : EReal :=
  ∑ j : Fin 1024, Ideal.sqrt ((Finset.univ : Finset (Fin 2048)).fold min (Ideal.ofBits .f32 0x7F800000#32) (fun n => dist (A n) (Bt j)))

/-- THE KERNEL'S FORM of one batch entry's loss, from its two tiles: the running row minimum from `+∞`, the column
    sums accumulated from `0`, each mean a product with the word `2⁻¹¹`. -/
def kloss (A : Fin 2048 → Fin 3 → EReal) (B0 B1 : Fin 1024 → Fin 3 → EReal) : EReal :=
  max ((∑ n : Fin 2048, Ideal.sqrt (min (min (Ideal.ofBits .f32 0x7F800000#32) (rowMinTile A B0 n)) (rowMinTile A B1 n)))
        * Ideal.ofBits .f32 0x3A000000#32)
      (((Ideal.ofBits .f32 0x00000000#32 + colSumTile A B0) + colSumTile A B1) * Ideal.ofBits .f32 0x3A000000#32)

/-- THE REFERENCE'S FORM: each minimum one fold over all 2048 partners, each mean the sum (from the word `0`) divided
    by the word `2048`. -/
def rloss (A B : Fin 2048 → Fin 3 → EReal) : EReal :=
  max (Ideal.div (Ideal.ofBits .f32 0x00000000#32
          + ∑ n : Fin 2048, Ideal.sqrt ((Finset.univ : Finset (Fin 2048)).fold min (Ideal.ofBits .f32 0x7F800000#32) (fun m => dist (A n) (B m))))
        (Ideal.ofBits .f32 0x45000000#32))
      (Ideal.div (Ideal.ofBits .f32 0x00000000#32
          + ∑ m : Fin 2048, Ideal.sqrt ((Finset.univ : Finset (Fin 2048)).fold min (Ideal.ofBits .f32 0x7F800000#32) (fun n => dist (A n) (B m))))
        (Ideal.ofBits .f32 0x45000000#32))

/-- The word `0x45000000` denotes the real `2048`. -/
theorem ofBits_2048 : Ideal.ofBits .f32 0x45000000#32 = ((2048 : ℝ) : EReal) := by
  simp [Ideal.ofBits, Ideal.ieee, -EReal.coe_mul]; norm_num

/-- The word `0x3A000000` denotes `2⁻¹¹ = 1/2048` exactly: a dyadic, so the kernel's folded reciprocal is the
    reference's divisor inverted with no rounding in between. -/
theorem ofBits_inv2048 : Ideal.ofBits .f32 0x3A000000#32 = ((1 / 2048 : ℝ) : EReal) := by
  simp [Ideal.ofBits, Ideal.ieee, -EReal.coe_mul]; norm_num

/-- Dividing by the word `2048` is multiplying by the word `2⁻¹¹`, at every extended real. -/
theorem div_2048 (x : EReal) : Ideal.div x (Ideal.ofBits .f32 0x45000000#32) = x * Ideal.ofBits .f32 0x3A000000#32 := by
  rw [ofBits_2048, ofBits_inv2048]
  exact Ideal.div_coe (by norm_num) x

/-- Every row of a 2048-row array is in exactly one of the two tiles. -/
theorem forall_tile (P : Fin 2048 → Prop) : (∀ m, P m) ↔ (∀ j, P (tile 0 j)) ∧ (∀ j, P (tile 1 j)) := by
  constructor
  · intro h; exact ⟨fun j => h _, fun j => h _⟩
  · rintro ⟨h0, h1⟩ m
    by_cases hm : m.val < 1024
    · have := h0 ⟨m.val, hm⟩
      have e : tile 0 ⟨m.val, hm⟩ = m := Fin.ext (by simp [tile])
      rwa [e] at this
    · have hlt : m.val - 1024 < 1024 := by have := m.isLt; omega
      have := h1 ⟨m.val - 1024, hlt⟩
      have e : tile 1 ⟨m.val - 1024, hlt⟩ = m := Fin.ext (by simp [tile]; omega)
      rwa [e] at this

/-- A minimum over all 2048 partners, folded from `b`, is the running minimum from `b` over the two tiles' minima
    (each folded from `b` too): an extended real is below either side exactly when it is below `b` and below every
    term. -/
theorem fold_min_tiles (b : EReal) (f : Fin 2048 → EReal) :
    min (min b ((Finset.univ : Finset (Fin 1024)).fold min b (fun j => f (tile 0 j))))
        ((Finset.univ : Finset (Fin 1024)).fold min b (fun j => f (tile 1 j)))
      = (Finset.univ : Finset (Fin 2048)).fold min b f := by
  refine eq_of_forall_le_iff fun c => ?_
  simp only [le_min_iff, Finset.le_fold_min, Finset.mem_univ, forall_true_left]
  rw [forall_tile (fun m => c ≤ f m)]
  tauto

/-- A sum over all 2048 rows is the sum of the two tiles' sums. -/
theorem sum_tiles (g : Fin 2048 → EReal) :
    (∑ j : Fin 1024, g (tile 0 j)) + (∑ j : Fin 1024, g (tile 1 j)) = ∑ m : Fin 2048, g m := by
  have h := Fin.sum_univ_add (M := EReal) (a := 1024) (b := 1024) (fun i : Fin (1024 + 1024) => g i)
  refine (Eq.trans ?_ h.symm)
  congr 1

/-- THE LAW: the kernel's two-tile form of a batch entry's loss is the reference's whole-array form. -/
theorem kloss_eq_rloss (A B : Fin 2048 → Fin 3 → EReal) :
    kloss A (fun j => B (tile 0 j)) (fun j => B (tile 1 j)) = rloss A B := by
  unfold kloss rloss rowMinTile colSumTile
  rw [div_2048, div_2048, Ideal.ofBits_zero_f32, zero_add, zero_add, zero_add]
  congr 2
  · exact Finset.sum_congr rfl fun n _ =>
      congrArg Ideal.sqrt (fold_min_tiles _ (fun m => dist (A n) (B m)))
  · exact sum_tiles (fun m => Ideal.sqrt ((Finset.univ : Finset (Fin 2048)).fold min (Ideal.ofBits .f32 0x7F800000#32) (fun n => dist (A n) (B m))))

end Cert.Chamfer

end
-- ==== Proof.KPay.lean ====
/-
  The kernel body's arithmetic read at an index, at the ideal instance: each value the body stores, as the
  mathematics of Proof/Spec.lean over the rows of the two blocks it loaded.
-/
import proofs.«430015_j76974403879473_3_alg».proof.Proof.Gen.KernelIdeal.Skeleton
import proofs.«430015_j76974403879473_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx Cert.Chamfer

/-! ### The keepdims layout operations read at an index -/

/-- A `[1, 1]` array broadcast to `[a, b]` reads its one entry everywhere. -/
private theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a, 1]` column broadcast to `[a, b]` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[N, M]` array summed along its rows, read at row `r`: the sum of the row's `M` entries. -/
private theorem rowSum_apply {N M : ℕ} (v : FVec Ideal ⟨2, ![N, M]⟩ .f32)
    (h : (⟨2, ![N, M]⟩ : Shape).Reduces [1] ⟨1, ![N]⟩) (hφ : FKind.Formats .f32)
    (hacc : (0x00000000#32 : BitVec 32) = 0x00000000#32) (r : Fin N) :
    multiReduction .add [1] ⟨1, ![N]⟩ v 0x00000000#32 h hφ hacc (ix1 r) = ∑ k : Fin M, v (ix2 r k) := by
  refine (Ideal.multiReduction_add_single v 0x00000000#32 h hφ hacc (ix1 r)).trans ?_
  refine Finset.sum_congr rfl fun k _ => congrArg v ?_
  funext c
  match c with
  | ⟨0, _⟩ => rfl
  | ⟨1, _⟩ => rfl

/-- An `[N, M]` array summed along its columns, read at column `c`: the sum of the column's `N` entries. -/
private theorem colSum_apply {N M : ℕ} (v : FVec Ideal ⟨2, ![N, M]⟩ .f32)
    (h : (⟨2, ![N, M]⟩ : Shape).Reduces [0] ⟨1, ![M]⟩) (hφ : FKind.Formats .f32)
    (hacc : (0x00000000#32 : BitVec 32) = 0x00000000#32) (c : Fin M) :
    multiReduction .add [0] ⟨1, ![M]⟩ v 0x00000000#32 h hφ hacc (ix1 c) = ∑ k : Fin N, v (ix2 k c) := by
  refine (Ideal.multiReduction_add_single v 0x00000000#32 h hφ hacc (ix1 c)).trans ?_
  refine Finset.sum_congr rfl fun k _ => congrArg v ?_
  funext d
  match d with
  | ⟨0, _⟩ => rfl
  | ⟨1, _⟩ => rfl

/-- A minimum reduction over ONE axis, at the ideal values: the fold of `min` from the accumulator's value over that
    axis's coordinates. -/
private theorem multiReduction_minimumf_single {s t : Shape} {φ : FTy} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The minimum of each row of an `[N, M]` array from the word `+∞`, read at row `r`. -/
private theorem rowMin_apply {N M : ℕ} (v : FVec Ideal ⟨2, ![N, M]⟩ .f32)
    (h : (⟨2, ![N, M]⟩ : Shape).Reduces [1] ⟨1, ![N]⟩) (hφ : FKind.Formats .f32)
    (hacc : (0x7F800000#32 : BitVec 32) = 0x7F800000#32) (r : Fin N) :
    multiReduction .minimumf [1] ⟨1, ![N]⟩ v 0x7F800000#32 h hφ hacc (ix1 r)
      = (Finset.univ : Finset (Fin M)).fold min (Ideal.ofBits .f32 0x7F800000#32) (fun j => v (ix2 r j)) := by
  refine (multiReduction_minimumf_single v 0x7F800000#32 h hφ hacc (ix1 r)).trans ?_
  refine congrArg (fun f => (Finset.univ : Finset (Fin M)).fold min (Ideal.ofBits .f32 0x7F800000#32) f) ?_
  funext j
  refine congrArg v ?_
  funext c
  match c with
  | ⟨0, _⟩ => rfl
  | ⟨1, _⟩ => rfl

/-- The minimum of each column of an `[N, M]` array from the word `+∞`, read at column `c`. -/
private theorem colMin_apply {N M : ℕ} (v : FVec Ideal ⟨2, ![N, M]⟩ .f32)
    (h : (⟨2, ![N, M]⟩ : Shape).Reduces [0] ⟨1, ![M]⟩) (hφ : FKind.Formats .f32)
    (hacc : (0x7F800000#32 : BitVec 32) = 0x7F800000#32) (c : Fin M) :
    multiReduction .minimumf [0] ⟨1, ![M]⟩ v 0x7F800000#32 h hφ hacc (ix1 c)
      = (Finset.univ : Finset (Fin N)).fold min (Ideal.ofBits .f32 0x7F800000#32) (fun n => v (ix2 n c)) := by
  refine (multiReduction_minimumf_single v 0x7F800000#32 h hφ hacc (ix1 c)).trans ?_
  refine congrArg (fun f => (Finset.univ : Finset (Fin N)).fold min (Ideal.ofBits .f32 0x7F800000#32) f) ?_
  funext n
  refine congrArg v ?_
  funext d
  match d with
  | ⟨0, _⟩ => rfl
  | ⟨1, _⟩ => rfl

/-- A square root at an index is the extended reals' square root of the element. -/
private theorem sqrt_apply {s : Shape} {φ : FTy} (a : FVec Ideal s φ) (i : s.Idx) : sqrt a i = Ideal.sqrt (a i) := rfl

/-! ### The body's matrix product read at an index

The product contracts the left operand's axis 1 with the right operand's axis 0; the four coordinate facts are kept
apart, one per operand axis. -/

/-- The left operand's row coordinate is the result's row. -/
private theorem lhs_dot_0 (i : S2048x1024.Idx) (q : dot_S2048x3_S3x1024_S2048x1024_1_0_0_1_n_n.contr.Idx) :
    (dot_S2048x3_S3x1024_S2048x1024_1_0_0_1_n_n.lhsIdx i q 0).val = (i 0).val := by
  unfold DotDims.lhsIdx
  rw [dif_neg (show ¬(0 : Fin S2048x3.rank) ∈ dot_S2048x3_S3x1024_S2048x1024_1_0_0_1_n_n.lhsBatch by decide), dif_pos (show (0 : Fin S2048x3.rank) ∈ dot_S2048x3_S3x1024_S2048x1024_1_0_0_1_n_n.lhsNonContracting by decide)]
  rfl
/-- The left operand's column coordinate is the contraction coordinate. -/
private theorem lhs_dot_1 (i : S2048x1024.Idx) (q : dot_S2048x3_S3x1024_S2048x1024_1_0_0_1_n_n.contr.Idx) :
    (dot_S2048x3_S3x1024_S2048x1024_1_0_0_1_n_n.lhsIdx i q 1).val = (q ⟨0, by decide⟩).val :=
  dot_S2048x3_S3x1024_S2048x1024_1_0_0_1_n_n.lhsIdx_val_of_single rfl i q
/-- The right operand's row coordinate is the contraction coordinate. -/
private theorem rhs_dot_0 (i : S2048x1024.Idx) (q : dot_S2048x3_S3x1024_S2048x1024_1_0_0_1_n_n.contr.Idx) :
    (dot_S2048x3_S3x1024_S2048x1024_1_0_0_1_n_n.rhsIdx i q 0).val = (q ⟨0, by decide⟩).val :=
  dot_S2048x3_S3x1024_S2048x1024_1_0_0_1_n_n.rhsIdx_val_of_single rfl i q
/-- The right operand's column coordinate is the result's column. -/
private theorem rhs_dot_1 (i : S2048x1024.Idx) (q : dot_S2048x3_S3x1024_S2048x1024_1_0_0_1_n_n.contr.Idx) :
    (dot_S2048x3_S3x1024_S2048x1024_1_0_0_1_n_n.rhsIdx i q 1).val = (i 1).val := by
  unfold DotDims.rhsIdx
  rw [dif_neg (show ¬(1 : Fin S3x1024.rank) ∈ dot_S2048x3_S3x1024_S2048x1024_1_0_0_1_n_n.rhsBatch by decide), dif_pos (show (1 : Fin S3x1024.rank) ∈ dot_S2048x3_S3x1024_S2048x1024_1_0_0_1_n_n.rhsNonContracting by decide)]
  rfl

/-- The product into the zero splat, read at `(n, j)`: the sum over the three contraction coordinates of the left
    operand's row `n` times the right operand's column `j`. -/
private theorem matmul_rows_apply (A : FVec Ideal S2048x3 .f32) (Bt : FVec Ideal S3x1024 .f32) (n : Fin 2048) (j : Fin 1024) :
    matmul dot_S2048x3_S3x1024_S2048x1024_1_0_0_1_n_n (some .fp32) A Bt (constant S2048x1024 .f32 0x00000000#32) (ix2 n j)
      = ∑ k : Fin 3, A (ix2 n k) * Bt (ix2 k j) := by
  refine (Ideal.matmul_constant_zero_apply dot_S2048x3_S3x1024_S2048x1024_1_0_0_1_n_n (some .fp32) A Bt (ix2 n j)).trans ?_
  rw [← Equiv.sum_comp (ValueIdx.contrEquiv1 dot_S2048x3_S3x1024_S2048x1024_1_0_0_1_n_n 3 rfl rfl).symm]
  refine Finset.sum_congr rfl fun k _ => ?_
  have hk := ValueIdx.contrEquiv1_symm_val dot_S2048x3_S3x1024_S2048x1024_1_0_0_1_n_n 3 rfl rfl k
  have el : dot_S2048x3_S3x1024_S2048x1024_1_0_0_1_n_n.lhsIdx (ix2 n j) ((ValueIdx.contrEquiv1 dot_S2048x3_S3x1024_S2048x1024_1_0_0_1_n_n 3 rfl rfl).symm k) = ix2 n k := funext fun a => Fin.ext (by
    match a with
    | ⟨0, _⟩ => exact lhs_dot_0 _ _
    | ⟨1, _⟩ => exact (lhs_dot_1 _ _).trans hk)
  have er : dot_S2048x3_S3x1024_S2048x1024_1_0_0_1_n_n.rhsIdx (ix2 n j) ((ValueIdx.contrEquiv1 dot_S2048x3_S3x1024_S2048x1024_1_0_0_1_n_n 3 rfl rfl).symm k) = ix2 k j := funext fun a => Fin.ext (by
    match a with
    | ⟨0, _⟩ => exact (rhs_dot_0 _ _).trans hk
    | ⟨1, _⟩ => exact rhs_dot_1 _ _)
  rw [el, er]

/-- The reset of the row-minimum scratch stores the word `+∞` everywhere. -/
theorem pay3_apply (n : Fin 2048) :
    (k0_pay3 (F := Ideal)) (ix2 n (0 : Fin 1)) = Ideal.ofBits .f32 0x7F800000#32 := by
  unfold k0_pay3
  rw [shapeCast_self]
  rfl

/-- The reset of the column-sum scratch stores the word `0` everywhere. -/
theorem pay4_apply (l : Fin 128) :
    (k0_pay4 (F := Ideal)) (ix2 (0 : Fin 1) l) = Ideal.ofBits .f32 0x00000000#32 := by
  unfold k0_pay4
  rw [shapeCast_self]
  rfl

/-- The column-sum scratch's update: every lane gets the tile's sum added. -/
theorem pay1_apply (v34 : FVec Ideal S1x1 .f32) (v35 : FVec Ideal S1x128 .f32) (l : Fin 128) :
    k0_pay1 (F := Ideal) v34 v35 (ix2 (0 : Fin 1) l) = v35 (ix2 (0 : Fin 1) l) + v34 (ix2 (0 : Fin 1) (0 : Fin 1)) := by
  unfold k0_pay1
  rw [shapeCast_self, shapeCast_self, addf_apply, broadcastTo_11_ab_apply]

/-- The tile's distance matrix: entry (n, j) is the clamped squared distance of row n of the first block and row j
    of the second. -/
theorem pay5_apply (x0 : FVec Ideal S1x2048x3 .f32) (x1 : FVec Ideal S1x1024x3 .f32) (n : Fin 2048) (j : Fin 1024) :
    k0_pay5 (F := Ideal) x0 x1 (ix2 n j) = dist (blockRows x0 n) (blockRows x1 j) := by
  unfold k0_pay5
  simp only [maximumf_apply, subf_apply, addf_apply, mulf_apply, broadcast_apply]
  unfold Chamfer.dist
  refine congrArg₂ max (congrArg₂ (· - ·) (congrArg₂ (· + ·) ?_ ?_) (congrArg₂ (· * ·) rfl ?_)) rfl
  · refine (broadcastTo_a1_ab_apply _ _ n j).trans ?_
    refine (shapeCast_a_a1_apply _ _ n 0).trans ?_
    refine (rowSum_apply _ _ _ _ n).trans ?_
    refine Finset.sum_congr rfl fun k _ => ?_
    rw [mulf_apply, shapeCast_1ab_ab_apply]
    rfl
  · refine (broadcastTo_1b_ab_apply _ _ n j).trans ?_
    refine (shapeCast_a_1a_apply _ _ 0 j).trans ?_
    refine (rowSum_apply _ _ _ _ j).trans ?_
    refine Finset.sum_congr rfl fun k _ => ?_
    rw [mulf_apply, shapeCast_1ab_ab_apply]
    rfl
  · refine (matmul_rows_apply _ _ n j).trans ?_
    refine Finset.sum_congr rfl fun k _ => ?_
    rw [transpose_ix2_apply, shapeCast_1ab_ab_apply, shapeCast_1ab_ab_apply]
    rfl

/-- The row-minimum scratch's update: the old value against the row's minimum over this tile. -/
theorem pay6_apply (x0 : FVec Ideal S1x2048x3 .f32) (x1 : FVec Ideal S1x1024x3 .f32) (v25 : FVec Ideal S2048x1 .f32)
    (n : Fin 2048) :
    k0_pay6 (F := Ideal) x0 x1 v25 (ix2 n (0 : Fin 1))
      = min (v25 (ix2 n (0 : Fin 1))) (rowMinTile (blockRows x0) (blockRows x1) n) := by
  unfold k0_pay6
  rw [shapeCast_self, minimumf_apply]
  refine congrArg (min _) ?_
  refine (shapeCast_a_a1_apply _ _ n 0).trans ?_
  refine (rowMin_apply _ _ _ _ n).trans ?_
  unfold rowMinTile
  refine congrArg (fun f => (Finset.univ : Finset (Fin 1024)).fold min (Ideal.ofBits .f32 0x7F800000#32) f) ?_
  funext j
  exact pay5_apply x0 x1 n j

/-- The tile's column sum: over the tile's points, the square root of each one's minimum distance to all rows. -/
theorem pay7_apply (x0 : FVec Ideal S1x2048x3 .f32) (x1 : FVec Ideal S1x1024x3 .f32) :
    k0_pay7 (F := Ideal) x0 x1 (ix2 (0 : Fin 1) (0 : Fin 1)) = colSumTile (blockRows x0) (blockRows x1) := by
  unfold k0_pay7
  refine (shapeCast_a_1a_apply _ _ 0 0).trans ?_
  refine (rowSum_apply _ _ _ _ 0).trans ?_
  unfold colSumTile
  refine Finset.sum_congr rfl fun j _ => ?_
  refine (sqrt_apply _ _).trans (congrArg Ideal.sqrt ?_)
  refine (shapeCast_a_1a_apply _ _ 0 j).trans ?_
  refine (colMin_apply _ _ _ _ j).trans ?_
  refine congrArg (fun f => (Finset.univ : Finset (Fin 2048)).fold min (Ideal.ofBits .f32 0x7F800000#32) f) ?_
  funext n
  exact pay5_apply x0 x1 n j

/-- The output block: every entry the larger of the two means, each a sum times the word `2⁻¹¹`. -/
theorem pay2_apply (v45 : FVec Ideal S2048x1 .f32) (v51 : FVec Ideal S1x1 .f32) (r : Fin 8) (l : Fin 128) :
    k0_pay2 (F := Ideal) v45 v51 (ix3 (0 : Fin 1) r l)
      = max ((∑ n : Fin 2048, Ideal.sqrt (v45 (ix2 n (0 : Fin 1)))) * Ideal.ofBits .f32 0x3A000000#32)
          (v51 (ix2 (0 : Fin 1) (0 : Fin 1)) * Ideal.ofBits .f32 0x3A000000#32) := by
  unfold k0_pay2
  refine (shapeCast_ab_1ab_apply _ _ 0 r l).trans ?_
  refine (broadcastTo_11_ab_apply _ _ r l).trans ?_
  rw [shapeCast_self, maximumf_apply, mulf_apply, mulf_apply, broadcast_apply]
  refine congrArg₂ max (congrArg₂ (· * ·) ?_ rfl) rfl
  refine (shapeCast_a_1a_apply _ _ 0 0).trans ?_
  refine (colSum_apply _ _ _ _ 0).trans ?_
  exact Finset.sum_congr rfl fun k _ => sqrt_apply _ _

end Cert.KernelIdeal.PayValue

end
-- ==== Proof.KPoint.lean ====
/-
  What the kernel's output block holds at a batch entry's second tile, as a function of the two argument arrays.

  The grid has 64 points: point t handles batch entry t / 2 and tile t % 2. The first window's block at t is the
  entry's 2048 rows of the first array (the same block at both tiles), the second window's block the tile's 1024 rows
  of the second array. At an odd point the body runs over what the even point before it left in the two scratch
  buffers, and that point reset them first: so the output block is the two-tile form of the entry's loss, which is the
  reference's form by the law of Proof/Spec.lean.
-/
import proofs.«430015_j76974403879473_3_alg».proof.Proof.KPieces
import proofs.«430015_j76974403879473_3_alg».proof.Proof.KPay
import proofs.«430015_j76974403879473_3_alg».proof.Proof.Spec
import Idealize.ShloMosaic.Lib.ValueIdx

noncomputable section

open scoped BigOperators

open Idealize.ShloMosaic Idealize.ShloMosaic.TcCoe Idealize.SL.Sem

namespace Cert.KernelIdeal.PointValue

open Cert.KernelIdeal Cert.KernelIdeal.Gen Cert.KernelIdeal.Pieces Cert.KernelIdeal.PayValue Cert.Chamfer
open Idealize.ShloMosaic.ValueIdx

/-- The printed index maps, decided over the grid: every window's batch index is t / 2, the second window's tile
    index t % 2, every other block index 0. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

theorem lt64 (t : Fin cfg0.N) : t.val < 64 := lt_of_lt_of_eq t.isLt N_0

/-- The batch entry point t works on. -/
def entry (t : Fin cfg0.N) : Fin 32 := ⟨t.val / 2, by have := lt64 t; omega⟩
/-- The tile of the second array point t works on. -/
def tileOf (t : Fin cfg0.N) : Fin 2 := ⟨t.val % 2, by omega⟩

variable (m : (ℓ : Loc nD τ sig) → Buf (Elt Ideal) ℓ)

/-- The two windows' blocks at a point and the two argument arrays, at their literal types. -/
abbrev xb0 (c : Dev nD) (t : Fin cfg0.N) : FVec Ideal S1x2048x3 .f32 := iblk m c 0 t
abbrev xb1 (c : Dev nD) (t : Fin cfg0.N) : FVec Ideal S1x1024x3 .f32 := iblk m c 1 t
abbrev arr0 (c : Dev nD) : FVec Ideal S32x2048x3 .f32 := V m c main_arg0
abbrev arr1 (c : Dev nD) : FVec Ideal S32x2048x3 .f32 := V m c main_arg1

/-- The first window's block at t is the entry's rows of the first array. -/
theorem rows_xb0 (c : Dev nD) (t : Fin cfg0.N) : blockRows (xb0 m c t) = rows (arr0 m c) (entry t) := by
  obtain ⟨e0, e1, e2, -⟩ := idx_facts t
  funext n k
  show iblk m c 0 t (ix3 (0 : Fin 1) n k) = V m c main_arg0 (ix3 (entry t) n k)
  unfold iblk
  rw [View.read_apply]
  show V m c main_arg0 _ = V m c main_arg0 _
  congr 1
  funext a
  apply Fin.ext
  match a with
  | ⟨0, _⟩ => show win0_0.index t (0 : Fin 3) * 1 + 1 * 0 = t.val / 2; omega
  | ⟨1, _⟩ => show win0_0.index t (1 : Fin 3) * 2048 + 1 * n.val = n.val; omega
  | ⟨2, _⟩ => show win0_0.index t (2 : Fin 3) * 3 + 1 * k.val = k.val; omega

/-- The second window's block at t is the entry's rows of the second array in tile t % 2. -/
theorem rows_xb1 (c : Dev nD) (t : Fin cfg0.N) :
    blockRows (xb1 m c t) = fun j => rows (arr1 m c) (entry t) (tile (tileOf t) j) := by
  obtain ⟨-, -, -, e0, e1, e2, -⟩ := idx_facts t
  funext j k
  show iblk m c 1 t (ix3 (0 : Fin 1) j k) = V m c main_arg1 (ix3 (entry t) (tile (tileOf t) j) k)
  unfold iblk
  rw [View.read_apply]
  show V m c main_arg1 _ = V m c main_arg1 _
  congr 1
  funext a
  apply Fin.ext
  match a with
  | ⟨0, _⟩ => show win0_1.index t (0 : Fin 3) * 1 + 1 * 0 = t.val / 2; omega
  | ⟨1, _⟩ => show win0_1.index t (1 : Fin 3) * 1024 + 1 * j.val = t.val % 2 * 1024 + j.val; omega
  | ⟨2, _⟩ => show win0_1.index t (2 : Fin 3) * 3 + 1 * k.val = k.val; omega

/-- The point before an odd point. -/
def prev (t : Fin cfg0.N) : Fin cfg0.N := ⟨t.val - 1, lt_of_le_of_lt (Nat.sub_le _ _) t.isLt⟩

/-- At an odd point the output's staging block is the body's final arithmetic over the two scratch buffers as the two
    tiles' updates left them, the first tile's over the reset constants. -/
theorem outs_odd (c : Dev nD) (t : Fin cfg0.N) (h1 : t.val % 2 = 1) :
    (outsAt0 m c t.val t.isLt).1
      = k0_pay2 (F := Ideal) (k0_pay6 (F := Ideal) (xb0 m c t) (xb1 m c t) (k0_pay6 (F := Ideal) (xb0 m c (prev t)) (xb1 m c (prev t)) (k0_pay3 (F := Ideal))))
          (lane0 (F := Ideal) (k0_pay1 (F := Ideal) (k0_pay7 (F := Ideal) (xb0 m c t) (xb1 m c t))
            (k0_pay1 (F := Ideal) (k0_pay7 (F := Ideal) (xb0 m c (prev t)) (xb1 m c (prev t))) (k0_pay4 (F := Ideal))))) := by
  have h0 : ¬t.val % 2 = 0 := by omega
  have hp0 : (prev t).val % 2 = 0 := by show (t.val - 1) % 2 = 0; omega
  have hp1 : ¬(prev t).val % 2 = 1 := by show ¬(t.val - 1) % 2 = 1; omega
  rw [outsAt0_B m c t h0 h1]
  dsimp only
  rw [out_B_2]
  have hA := outsAt0_A m c (prev t) hp0 hp1
  rw [show outsAt0 m c (t.val - 1) (Nat.lt_of_le_of_lt (Nat.sub_le _ _) t.isLt) = outsAt0 m c (prev t).val (prev t).isLt from rfl, hA]
  dsimp only
  rw [sout_A_0, sout_A_1]

/-- The body's 1 × 1 load at the origin of the column-sum row reads the row's first lane. -/
theorem lane0_apply (w : FVec Ideal S1x128 .f32) :
    lane0 (F := Ideal) w (ix2 (0 : Fin 1) (0 : Fin 1)) = w (ix2 (0 : Fin 1) (0 : Fin 128)) := by
  show w _ = w _
  congr 1
  funext a
  apply Fin.ext
  match a with
  | ⟨0, _⟩ => rfl
  | ⟨1, _⟩ => rfl

/-- THE OUTPUT BLOCK AT AN ODD POINT: every entry is the reference's form of the loss of the point's batch entry.
    The two tiles' readings of the scratch buffers make the kernel's two-tile form; the point before works on the
    same entry's first tile, this point on its second; the law of Proof/Spec.lean joins the two forms. -/
theorem out_odd_value (c : Dev nD) (t : Fin cfg0.N) (h1 : t.val % 2 = 1) (r : Fin 8) (l : Fin 128) :
    (outsAt0 m c t.val t.isLt).1 (ix3 (0 : Fin 1) r l)
      = rloss (rows (arr0 m c) (entry t)) (rows (arr1 m c) (entry t)) := by
  have he : entry (prev t) = entry t := Fin.ext (by show (t.val - 1) / 2 = t.val / 2; omega)
  have ht1 : tileOf t = 1 := Fin.ext (by show t.val % 2 = 1; exact h1)
  have ht0 : tileOf (prev t) = 0 := Fin.ext (by show (t.val - 1) % 2 = 0; omega)
  rw [outs_odd m c t h1, pay2_apply, lane0_apply, pay1_apply, pay1_apply, pay4_apply, pay7_apply, pay7_apply]
  simp only [pay6_apply, pay3_apply]
  rw [rows_xb0, rows_xb0, rows_xb1, rows_xb1, he, ht0, ht1]
  exact kloss_eq_rloss _ _

end Cert.KernelIdeal.PointValue

end
-- ==== Proof.KFinal.lean ====
/-
  The kernel program's result. Every odd point writes its output block back, block t / 2 of the [32, 8, 128] result
  array; the 32 odd points' blocks tile the array, so after the region entry (b, r, l) of the array is the loss of batch
  entry b, whatever r and l. The six host operations after the region then take the column (·, 0, 0), add its 32
  entries up from the word 0 and divide by the word 32.
-/
import proofs.«430015_j76974403879473_3_alg».proof.Proof.KPoint
import Idealize.ShloMosaic.Lib.Pipeline.Value
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.FinalValue

open Cert.KernelIdeal Cert.KernelIdeal.Gen Cert.KernelIdeal.PointValue Cert.Chamfer
open Idealize.ShloMosaic.ValueIdx

variable (m : (ℓ : Loc nD τ sig) → Buf (Elt Ideal) ℓ) (ρ : Dev nD → PrngReg)

/-- The per-batch-entry losses as a vector of 32, from the two argument arrays. -/
def lossVec (a0 a1 : FVec Ideal S32x2048x3 .f32) : FVec Ideal S32 .f32 :=
  fun b => rloss (rows a0 (b 0)) (rows a1 (b 0))

/-- What the result array ends holding: entry (b, r, l) the loss of batch entry b. -/
def outArr (a0 a1 : FVec Ideal S32x2048x3 .f32) : FVec Ideal S32x8x128 .f32 :=
  fun i => rloss (rows a0 (i 0)) (rows a1 (i 0))

/-- WHAT AN ODD POINT WRITES BACK is its block of `outArr`. -/
theorem flushed_eq (c : Dev nD) (t : Fin cfg0.N) (hf : (cfg0.win 2).flush t = true) :
    (dats m 0 c).flushed 2 t = ((cfg0.win 2).blk t).view.read (Elt Ideal) (outArr (arr0 m c) (arr1 m c)) := by
  have h1 : t.val % 2 = 1 := (flush0_2 t).mp hf
  obtain ⟨-, -, -, -, -, -, e0, e1, e2⟩ := idx_facts t
  show (cfg0.win 2).cut (grid0.coords t) ((dats m 0 c).after 2 t) = _
  rw [after0_2]
  funext j
  obtain ⟨p, r, l, rfl⟩ : ∃ (p : Fin 1) (r : Fin 8) (l : Fin 128), j = ix3 p r l := ⟨j 0, j 1, j 2, eq_ix3 j⟩
  obtain rfl : p = 0 := Subsingleton.elim _ _
  show (outsAt0 m c t.val t.isLt).1 (ix3 (0 : Fin 1) r l) = outArr (arr0 m c) (arr1 m c) (((cfg0.win 2).blk t).view.emb (ix3 (0 : Fin 1) r l))
  rw [out_odd_value m c t h1 r l]
  unfold outArr
  have hb : (((cfg0.win 2).blk t).view.emb (ix3 (0 : Fin 1) r l)) 0 = entry t :=
    Fin.ext (by show win0_2.index t (0 : Fin 3) * 1 + 1 * 0 = t.val / 2; omega)
  rw [hb]

/-- An index of the result array is in point t's block iff each coordinate is in the block's range on its axis. -/
theorem mem_blk (t : Fin cfg0.N) (i : S32x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- Every index of the result array is in the block the odd point of its batch entry writes back. -/
theorem cover (i : S32x8x128.Idx) :
    ∃ t : Fin cfg0.N, (cfg0.win 2).flush t = true ∧ i ∈ ((cfg0.win 2).blk t).view.set := by
  have hi0 : (i 0).val < 32 := (i 0).isLt
  have hi1 : (i 1).val < 8 := (i 1).isLt
  have hi2 : (i 2).val < 128 := (i 2).isLt
  let t : Fin cfg0.N := ⟨2 * (i 0).val + 1, by rw [show cfg0.N = 64 from N_0]; omega⟩
  obtain ⟨-, -, -, -, -, -, e0, e1, e2⟩ := idx_facts t
  have tv : t.val = 2 * (i 0).val + 1 := rfl
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- THE RESULT ARRAY after the region. -/
theorem final (c : Dev nD) : (dats m 0 c).arrAt 2 cfg0.N = outArr (arr0 m c) (arr1 m c) :=
  (dats m 0 c).arrAt_eq_of_cover 2 (outArr (arr0 m c) (arr1 m c)) (flushed_eq m c) cover

/-- The two host operations that end both programs: the sum of the 32 losses from the word 0, divided by the word 32. -/
def meanTail (v : FVec Ideal S32 .f32) : FVec Ideal S_ .f32 :=
  Host.divf (F := Ideal) (Host.reduceAdd (F := Ideal) v (constant (F := Ideal) S_ .f32 0x00000000#32) reducesTo_S32_S_d0 h_S_)
    (constant (F := Ideal) S_ .f32 0x42000000#32)

/-- The column (·, 0, 0) of the result array, as a vector of 32, is the vector of losses. -/
theorem column_eq (a0 a1 : FVec Ideal S32x2048x3 .f32) :
    shapeCast S32 (extractStridedSlice S32x1x1 ![0, 0, 0] (outArr a0 a1) slices_S32x8x128_S32x1x1_0_0_0) shapeCasts_S32x1x1_S32
      = lossVec a0 a1 := by
  funext b
  obtain ⟨q, rfl⟩ : ∃ q : Fin 32, b = ix1 q := ⟨b 0, eq_ix1 b⟩
  refine (shapeCast_apply _ shapeCasts_S32x1x1_S32 (ix1 q) (ix3 q (0 : Fin 1) (0 : Fin 1)) ?_).trans ?_
  · rw [Shape.rowMajor_val_three, Shape.rowMajor_val_one]
    show (q.val * 1 + 0) * 1 + 0 = q.val
    omega
  refine (extractStridedSlice_apply _ _ slices_S32x8x128_S32x1x1_0_0_0 (ix3 q (0 : Fin 1) (0 : Fin 1))
    (ix3 q (0 : Fin 8) (0 : Fin 128)) ?_).trans ?_
  · intro a
    match a with
    | ⟨0, _⟩ => show q.val = 0 + q.val; omega
    | ⟨1, _⟩ => rfl
    | ⟨2, _⟩ => rfl
  rfl

/-- THE TAIL: after the six host operations the result buffer holds the mean of the 32 losses. -/
theorem tail_eq (c : Dev nD) :
    Pipeline.afterTail₀ cfgs (dats m) 0 (V0 m) [hostOps1] c main_v4 = meanTail (lossVec (arr0 m c) (arr1 m c)) := by
  unfold Pipeline.afterTail₀
  show StableHlo.after hostOps1 _ (Proc.devRef .tc main_v4) = _
  after_results
  rw [(Pipeline.withArrays_arr spec0 launch0.win.arr_inj c _ _ 2).trans (final m c)]
  show Host.divf (F := Ideal) (Host.reduceAdd (F := Ideal)
      (shapeCast S32 (extractStridedSlice S32x1x1 ![0, 0, 0] (outArr (arr0 m c) (arr1 m c)) slices_S32x8x128_S32x1x1_0_0_0) shapeCasts_S32x1x1_S32)
      (constant (F := Ideal) S_ .f32 0x00000000#32) reducesTo_S32_S_d0 h_S_) (constant (F := Ideal) S_ .f32 0x42000000#32) = _
  rw [column_eq]
  rfl

/-- THE RUN, READ: every weakly fair execution of the kernel program ends with its result at the mean of the 32
    per-batch-entry losses of the two argument arrays, and the arguments unchanged. -/
theorem run : θ_run defs (onTc (τ := τ) (main (F := Ideal))) ⟨m, fun _ => 0, ρ⟩ fun r => ∀ c : Dev nD,
      r.2.mem ((c.tc : Thread nD τ).loc main_v4)
        = meanTail (lossVec (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (Pipeline.mem_restRefs_of main_v4 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.FinalValue

end
-- ==== Proof.RefSide.lean ====
/-
  The reference's per-batch-entry loss, read off its generated stages: entry `b` of the vector the last two host
  operations average is Proof/Spec.lean's `rloss` of the two arguments' rows for `b`.
-/
import proofs.«430015_j76974403879473_3_alg».proof.Proof.Gen.ReferenceIdeal.Read
import proofs.«430015_j76974403879473_3_alg».proof.Proof.Spec
import Idealize.ShloMosaic.Lib.ValueIdx
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Chamfer

/-- The reference's clamped squared distance at `(b, n, m)` (its stage `%14`): the two squared norms are sums over the
    three coordinates from the zero word, which `0 + s = s` removes; what is left is `dist` of row `n` of the first
    argument and row `m` of the second, the words `2` and `0` kept as words. -/
private theorem v14_at (x0 x1 : (⟨S32x2048x3, .f32⟩ : BufTy).Contents (Elt Ideal)) (b : Fin 32) (n m : Fin 2048) :
    val_main_v14 (F := Ideal) x0 x1 (ix3 b n m) = dist (rows x0 b n) (rows x1 b m) := by
  rw [val_main_v14_apply, val_main_v12_apply, val_main_v9_apply, val_main_v7_apply, val_main_v5_apply, val_main_v1_apply,
    val_main_v8_apply, val_main_v6_apply, val_main_v3_apply, val_main_v11_apply, val_main_v10_apply, val_main_cst_1_apply,
    val_main_v4_apply, val_main_v13_apply, val_main_cst_2_apply, val_main_cst_apply, val_main_cst_0_apply]
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  simp only [e1, e2, e3, e4, val_main_v0_apply, val_main_v2_apply, Ideal.maximumf_def, Ideal.subf_def, Ideal.addf_def,
    Ideal.mulf_def, Ideal.ofBits_def]
  unfold Cert.Chamfer.dist Cert.Chamfer.rows
  rw [Ideal.ofBits_zero_f32, zero_add, zero_add]

/-- The minimum over the LAST axis (stage `%15`) at `(b, n)`: the fold of `min` from the word `+∞` over the 2048
    partners `m` of row `n`; the index over `(b, n)` with coordinate `m` inserted on axis 2 is `(b, n, m)`. -/
private theorem v15_at (x0 x1 : (⟨S32x2048x3, .f32⟩ : BufTy).Contents (Elt Ideal)) (b : Fin 32) (n : Fin 2048) :
    val_main_v15 (F := Ideal) x0 x1 (ix2 b n)
      = (Finset.univ : Finset (Fin 2048)).fold min (Ideal.ofBits .f32 0x7F800000#32)
          (fun m => Cert.Chamfer.dist (rows x0 b n) (rows x1 b m)) := by
  have hR : S32x2048x2048.Reduces [2] S32x2048 := by decide
  unfold val_main_v15
  generalize hy : val_main_v14 (F := Ideal) x0 x1 = y
  have key := Host.reduce_eq_fold_single (α := EReal) (s := S32x2048x2048) (t := S32x2048) (a := 2) (u := S_)
    (FloatOps.minimumf (F := Ideal) (φ := .f32)) y (val_main_cst_3 (F := Ideal)) reducesTo_S32x2048x2048_S32x2048_d2 hR h_S_ (ix2 b n)
  refine key.trans ?_
  have hf : (y ∘ hR.lift (ix2 b n)) = fun m : Fin 2048 => Cert.Chamfer.dist (rows x0 b n) (rows x1 b m) := by
    refine funext fun (m : Fin 2048) => ?_
    have hl : hR.lift (ix2 b n) m = ix3 b n m := funext fun a => Fin.ext (by
      match a with
      | ⟨0, _⟩ => rfl
      | ⟨1, _⟩ => rfl
      | ⟨2, _⟩ => rfl)
    show y (hR.lift (ix2 b n) m) = _
    rw [hl, ← hy]
    exact v14_at x0 x1 b n m
  rw [hf, val_main_cst_3_apply]
  rfl

/-- The minimum over the MIDDLE axis (stage `%16`) at `(b, m)`: the fold of `min` from the word `+∞` over the 2048
    partners `n` of row `m`; the index over `(b, m)` with coordinate `n` inserted on axis 1 is `(b, n, m)`. -/
private theorem v16_at (x0 x1 : (⟨S32x2048x3, .f32⟩ : BufTy).Contents (Elt Ideal)) (b : Fin 32) (m : Fin 2048) :
    val_main_v16 (F := Ideal) x0 x1 (ix2 b m)
      = (Finset.univ : Finset (Fin 2048)).fold min (Ideal.ofBits .f32 0x7F800000#32)
          (fun n => Cert.Chamfer.dist (rows x0 b n) (rows x1 b m)) := by
  have hR : S32x2048x2048.Reduces [1] S32x2048 := by decide
  unfold val_main_v16
  generalize hy : val_main_v14 (F := Ideal) x0 x1 = y
  have key := Host.reduce_eq_fold_single (α := EReal) (s := S32x2048x2048) (t := S32x2048) (a := 1) (u := S_)
    (FloatOps.minimumf (F := Ideal) (φ := .f32)) y (val_main_cst_4 (F := Ideal)) reducesTo_S32x2048x2048_S32x2048_d1 hR h_S_ (ix2 b m)
  refine key.trans ?_
  have hf : (y ∘ hR.lift (ix2 b m)) = fun n : Fin 2048 => Cert.Chamfer.dist (rows x0 b n) (rows x1 b m) := by
    refine funext fun (n : Fin 2048) => ?_
    have hl : hR.lift (ix2 b m) n = ix3 b n m := funext fun a => Fin.ext (by
      match a with
      | ⟨0, _⟩ => rfl
      | ⟨1, _⟩ => rfl
      | ⟨2, _⟩ => rfl)
    show y (hR.lift (ix2 b m) n) = _
    rw [hl, ← hy]
    exact v14_at x0 x1 b n m
  rw [hf, val_main_cst_4_apply]
  rfl

/-- Entry `b` of the reference's per-batch-entry loss vector (its stage `%25`, the maximum of the two means) is the
    reference form of the loss of the two arguments' rows for `b`. Each mean is the sum from the zero word of the
    square roots of the 2048 minima, divided by the word `2048`: both stay as the reference spells them. -/
theorem val_main_v25_entry (x0 x1 : (⟨S32x2048x3, .f32⟩ : BufTy).Contents (Elt Ideal)) (b : Fin 32) :
    val_main_v25 (F := Ideal) x0 x1 (ix1 b) = rloss (rows x0 b) (rows x1 b) := by
  rw [val_main_v25_apply, val_main_v20_apply, val_main_v24_apply, val_main_v18_apply, val_main_v22_apply,
    val_main_v19_apply, val_main_v23_apply, val_main_cst_6_apply, val_main_cst_8_apply, val_main_cst_5_apply,
    val_main_cst_7_apply]
  have s1 : ∀ k : Fin 2048, val_main_v17 (F := Ideal) x0 x1 (idx_main_v18 (ix1 b) k)
      = Ideal.sqrt ((Finset.univ : Finset (Fin 2048)).fold min (Ideal.ofBits .f32 0x7F800000#32)
          (fun m => Cert.Chamfer.dist (rows x0 b k) (rows x1 b m))) := fun k => by
    have hi : idx_main_v18 (ix1 b) k = ix2 b k :=
      funext fun a => Fin.ext (by match a with | ⟨0, _⟩ => rfl | ⟨1, _⟩ => rfl)
    rw [val_main_v17_apply, Ideal.hostUnary_sqrt_def, hi, v15_at]
  have s2 : ∀ k : Fin 2048, val_main_v21 (F := Ideal) x0 x1 (idx_main_v22 (ix1 b) k)
      = Ideal.sqrt ((Finset.univ : Finset (Fin 2048)).fold min (Ideal.ofBits .f32 0x7F800000#32)
          (fun n => Cert.Chamfer.dist (rows x0 b n) (rows x1 b k))) := fun k => by
    have hi : idx_main_v22 (ix1 b) k = ix2 b k :=
      funext fun a => Fin.ext (by match a with | ⟨0, _⟩ => rfl | ⟨1, _⟩ => rfl)
    rw [val_main_v21_apply, Ideal.hostUnary_sqrt_def, hi, v16_at]
  simp only [s1, s2, Ideal.maximumf_def, Ideal.hostDivf_def, Ideal.ofBits_def]
  rfl

end Cert.ReferenceIdeal.RefValue

end
-- ==== Proof.lean ====
/-
  The proof of `Cert.Claim`: a chamfer-style loss kernel against its jnp reference, over the extended reals.

  Both programs compute, for each of 32 batch entries with point sets A and B of 2048 points in 3-space,
    max ( mean over A of √(squared distance to the nearest point of B),  mean over B of √(squared distance to the
    nearest point of A) ),
  the squared distance clamped at 0, and return the mean of the 32 values. The reference does it with whole-array host
  operations. The kernel walks B in two tiles of 1024 per batch entry, keeps a running row minimum and a running sum of
  column square roots in two scratch buffers that the first tile resets, writes the entry's value at the second tile,
  and leaves the final mean over the batch to six host operations.
  The two results are the same extended real: Proof/Spec.lean has the mathematics and the law joining the two-tile form
  to the whole-array form; Proof/KPay.lean reads the body's arithmetic at an index; Proof/KPieces.lean, Proof/KPoint.lean
  and Proof/KFinal.lean read the generated frame run's contents back as that arithmetic, point by point, block by block
  and through the host operations after the region; Proof/RefSide.lean reads the reference's generated run. The three
  frames are the generated ones (the reference's its generated run with the result dropped), and the idealization
  rewrote nothing, so what it preserves is trivially so.
-/
import proofs.«430015_j76974403879473_3_alg».proof.Defs
import proofs.«430015_j76974403879473_3_alg».proof.Proof.Gen.Kernel
import proofs.«430015_j76974403879473_3_alg».proof.Proof.Gen.Kernel.Skeleton
import proofs.«430015_j76974403879473_3_alg».proof.Proof.Gen.Kernel.Launch
import proofs.«430015_j76974403879473_3_alg».proof.Proof.Gen.Kernel.Points
import proofs.«430015_j76974403879473_3_alg».proof.Proof.Gen.Kernel.Frame
import proofs.«430015_j76974403879473_3_alg».proof.Proof.Gen.KernelIdeal
import proofs.«430015_j76974403879473_3_alg».proof.Proof.Gen.KernelIdeal.Skeleton
import proofs.«430015_j76974403879473_3_alg».proof.Proof.Gen.KernelIdeal.Launch
import proofs.«430015_j76974403879473_3_alg».proof.Proof.Gen.KernelIdeal.Points
import proofs.«430015_j76974403879473_3_alg».proof.Proof.Gen.KernelIdeal.Frame
import proofs.«430015_j76974403879473_3_alg».proof.Proof.Gen.ReferenceIdeal
import proofs.«430015_j76974403879473_3_alg».proof.Proof.Gen.ReferenceIdeal.Run
import proofs.«430015_j76974403879473_3_alg».proof.Proof.Gen.ReferenceIdeal.Read
import proofs.«430015_j76974403879473_3_alg».proof.Proof.Gen.Pre_finite_inputs
import proofs.«430015_j76974403879473_3_alg».proof.Proof.KFinal
import proofs.«430015_j76974403879473_3_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result stage is the mean of the 32 per-batch-entry losses: its last two operations are the sum
    from the word 0 and the division by the word 32, applied to the vector whose entry b is the loss of entry b. -/
theorem reference_result (x0 x1 : FVec Ideal Cert.KernelIdeal.S32x2048x3 .f32) :
    Cert.ReferenceIdeal.Read.val_main_v27 (F := Ideal) x0 x1
      = Cert.KernelIdeal.FinalValue.meanTail (Cert.KernelIdeal.FinalValue.lossVec x0 x1) := by
  have hv : Cert.ReferenceIdeal.Read.val_main_v25 (F := Ideal) x0 x1 = Cert.KernelIdeal.FinalValue.lossVec x0 x1 :=
    funext fun b => by
      obtain ⟨q, rfl⟩ : ∃ q : Fin 32, b = ix1 q := ⟨b 0, eq_ix1 b⟩
      exact Cert.ReferenceIdeal.RefValue.val_main_v25_entry x0 x1 q
  unfold Cert.ReferenceIdeal.Read.val_main_v27 Cert.ReferenceIdeal.Read.val_main_v26
  rw [hv]
  rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal instance both programs end at the mean of the 32 per-batch-entry losses of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.FinalValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2]
  exact reference_result _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
